-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000x64 : Shape := ⟨2, ![3200000, 64]⟩
abbrev S100000x1 : Shape := ⟨2, ![100000, 1]⟩
abbrev S64x24 : Shape := ⟨2, ![64, 24]⟩
abbrev S24 : Shape := ⟨1, ![24]⟩
abbrev S280x256 : Shape := ⟨2, ![280, 256]⟩
abbrev S256 : Shape := ⟨1, ![256]⟩
abbrev S3200000 : Shape := ⟨1, ![3200000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000x64 : S_.BroadcastsInDim S3200000x64 (![] : Fin 0 → Fin S3200000x64.rank)
  reducesTo_S3200000x64_S_d0_1 : S3200000x64.ReducesTo [0, 1] S_
  bcast_S_S100000x1 : S_.BroadcastsInDim S100000x1 (![] : Fin 0 → Fin S100000x1.rank)
  reducesTo_S100000x1_S_d0_1 : S100000x1.ReducesTo [0, 1] S_
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_
  bcast_S_S280x256 : S_.BroadcastsInDim S280x256 (![] : Fin 0 → Fin S280x256.rank)
  reducesTo_S280x256_S_d0_1 : S280x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S24 .f32) (main_arg5 : FVec F S280x256 .f32) (main_arg6 : FVec F S256 .f32) (main_v13 : IVec S_ 1) (main_v16 : IVec S64x24 1) : IVec S_ 1 :=
  let main_c_5 : IVec S_ 1 := constantI S_ 1 1#1
  let main_v17 : IVec S_ 1 := (fun x v => Host.reduce IntOp.andi x v reducesTo_S64x24_S_d0_1 h_S_) main_v16 main_c_5
  let main_v18 : IVec S_ 1 := andi main_v13 main_v17
  let main_v19 : FVec F S24 .f32 := Host.absf main_arg4
  let main_cst_6 : FVec F S_ .f32 := constant S_ .f32 0x7F800000#32
  let main_v20 : FVec F S24 .f32 := broadcastInDim S24 ![] bcast_S_S24 main_cst_6
  let main_v21 : IVec S24 1 := cmpf .olt main_v19 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v18 main_v22
  let main_v24 : FVec F S280x256 .f32 := Host.absf main_arg5
  let main_cst_8 : FVec F S_ .f32 := constant S_ .f32 0x7F800000#32
  let main_v25 : FVec F S280x256 .f32 := broadcastInDim S280x256 ![] bcast_S_S280x256 main_cst_8
  let main_v26 : IVec S280x256 1 := cmpf .olt main_v24 main_v25
  let main_c_9 : IVec S_ 1 := constantI S_ 1 1#1
  let main_v27 : IVec S_ 1 := (fun x v => Host.reduce IntOp.andi x v reducesTo_S280x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x256 .f32) (main_arg1 : FVec F S3200000x64 .f32) (main_arg2 : FVec F S100000x1 .f32) (main_arg3 : FVec F S64x24 .f32) (main_arg4 : FVec F S24 .f32) (main_arg5 : FVec F S280x256 .f32) (main_arg6 : FVec F S256 .f32) (main_arg7 : IVec S3200000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000x64 .f32 := Host.absf main_arg1
  let main_cst_0 : FVec F S_ .f32 := constant S_ .f32 0x7F800000#32
  let main_v5 : FVec F S3200000x64 .f32 := broadcastInDim S3200000x64 ![] bcast_S_S3200000x64 main_cst_0
  let main_v6 : IVec S3200000x64 1 := cmpf .olt main_v4 main_v5
  let main_c_1 : IVec S_ 1 := constantI S_ 1 1#1
  let main_v7 : IVec S_ 1 := (fun x v => Host.reduce IntOp.andi x v reducesTo_S3200000x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S64x24 .f32 := Host.absf main_arg3
  let main_cst_4 : FVec F S_ .f32 := constant S_ .f32 0x7F800000#32
  let main_v15 : FVec F S64x24 .f32 := broadcastInDim S64x24 ![] bcast_S_S64x24 main_cst_4
  let main_v16 : IVec S64x24 1 := cmpf .olt main_v14 main_v15
  fn_part1 (F := F) main_arg4 main_arg5 main_arg6 main_v13 main_v16
-- ==== Kernel.lean ====
abbrev S100000x256 : Shape := ⟨2, ![100000, 256]⟩
abbrev S3200000x64 : Shape := ⟨2, ![3200000, 64]⟩
abbrev S100000x1 : Shape := ⟨2, ![100000, 1]⟩
abbrev S64x24 : Shape := ⟨2, ![64, 24]⟩
abbrev S24 : Shape := ⟨1, ![24]⟩
abbrev S280x256 : Shape := ⟨2, ![280, 256]⟩
abbrev S256 : Shape := ⟨1, ![256]⟩
abbrev S3200000 : Shape := ⟨1, ![3200000]⟩
abbrev S3200000x24 : Shape := ⟨2, ![3200000, 24]⟩
abbrev S32000x64 : Shape := ⟨2, ![32000, 64]⟩
abbrev S32000x24 : Shape := ⟨2, ![32000, 24]⟩
abbrev S1x24 : Shape := ⟨2, ![1, 24]⟩
abbrev S_ : Shape := ⟨0, ![]⟩
abbrev S100000x24 : Shape := ⟨2, ![100000, 24]⟩
abbrev S3200000x1 : Shape := ⟨2, ![3200000, 1]⟩
abbrev S256x256 : Shape := ⟨2, ![256, 256]⟩
abbrev S24x256 : Shape := ⟨2, ![24, 256]⟩
abbrev S5000x256 : Shape := ⟨2, ![5000, 256]⟩
abbrev S5000x24 : Shape := ⟨2, ![5000, 24]⟩
abbrev S5000x1 : Shape := ⟨2, ![5000, 1]⟩
abbrev S1x256 : Shape := ⟨2, ![1, 256]⟩

abbrev nBuf : Space → Nat
  | .hbm => 16
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S3200000x64, .f32⟩
  | .hbm, ⟨2, _⟩ => ⟨S100000x1, .f32⟩
  | .hbm, ⟨3, _⟩ => ⟨S64x24, .f32⟩
  | .hbm, ⟨4, _⟩ => ⟨S24, .f32⟩
  | .hbm, ⟨5, _⟩ => ⟨S280x256, .f32⟩
  | .hbm, ⟨6, _⟩ => ⟨S256, .f32⟩
  | .hbm, ⟨7, _⟩ => ⟨S3200000, .i32⟩
  | .hbm, ⟨8, _⟩ => ⟨S3200000x24, .f32⟩
  | .hbm, ⟨9, _⟩ => ⟨S_, .f32⟩
  | .hbm, ⟨10, _⟩ => ⟨S100000x24, .f32⟩
  | .hbm, ⟨11, _⟩ => ⟨S3200000x1, .i32⟩
  | .hbm, ⟨12, _⟩ => ⟨S100000x24, .f32⟩
  | .hbm, ⟨13, _⟩ => ⟨S256x256, .f32⟩
  | .hbm, ⟨14, _⟩ => ⟨S24x256, .f32⟩
  | .hbm, ⟨15, _⟩ => ⟨S100000x256, .f32⟩
  | .local _ .vmem, ⟨0, _⟩ => ⟨S32000x64, .f32⟩
  | .local _ .vmem, ⟨1, _⟩ => ⟨S32000x64, .f32⟩
  | .local _ .vmem, ⟨2, _⟩ => ⟨S64x24, .f32⟩
  | .local _ .vmem, ⟨3, _⟩ => ⟨S24, .f32⟩
  | .local _ .vmem, ⟨4, _⟩ => ⟨S32000x24, .f32⟩
  | .local _ .vmem, ⟨5, _⟩ => ⟨S32000x24, .f32⟩
  | .local _ .vmem, ⟨6, _⟩ => ⟨S5000x256, .f32⟩
  | .local _ .vmem, ⟨7, _⟩ => ⟨S5000x256, .f32⟩
  | .local _ .vmem, ⟨8, _⟩ => ⟨S5000x24, .f32⟩
  | .local _ .vmem, ⟨9, _⟩ => ⟨S5000x24, .f32⟩
  | .local _ .vmem, ⟨10, _⟩ => ⟨S5000x1, .f32⟩
  | .local _ .vmem, ⟨11, _⟩ => ⟨S5000x1, .f32⟩
  | .local _ .vmem, ⟨12, _⟩ => ⟨S256x256, .f32⟩
  | .local _ .vmem, ⟨13, _⟩ => ⟨S24x256, .f32⟩
  | .local _ .vmem, ⟨14, _⟩ => ⟨S256, .f32⟩
  | .local _ .vmem, ⟨15, _⟩ => ⟨S5000x256, .f32⟩
  | .local _ .vmem, ⟨16, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32000x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S24x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S32000x64_S32000x64_0_0 : ∀ a, (![0, 0] : Fin 2 → Nat) a + S32000x64.size a ≤ S32000x64.size a
  h_S32000x64 : 0 < S32000x64.numel
  bitsLt_bf16_f32 : FTy.bits .bf16 < FTy.bits .f32
  inb_S64x24_S64x24_0_0 : ∀ a, (![0, 0] : Fin 2 → Nat) a + S64x24.size a ≤ S64x24.size a
  h_S64x24 : 0 < S64x24.numel
  inb_S24_S24_0 : ∀ a, (![0] : Fin 1 → Nat) a + S24.size a ≤ S24.size a
  h_S24 : 0 < S24.numel
  shapeCasts_S24_S1x24 : S24.ShapeCasts S1x24
  broadcasts_S1x24_S32000x24 : S1x24.Broadcasts S32000x24
  inb_S32000x24_S32000x24_0_0 : ∀ a, (![0, 0] : Fin 2 → Nat) a + S32000x24.size a ≤ S32000x24.size a
  h_S32000x24 : 0 < S32000x24.numel
  bcast_S_S100000x24 : S_.BroadcastsInDim S100000x24 (![] : Fin 0 → Fin S100000x24.rank)
  bcast_S3200000_S3200000x1_0 : S3200000.BroadcastsInDim S3200000x1 (![0] : Fin 1 → Fin S3200000x1.rank)
  slices_S280x256_S256x256_0_0 : S280x256.Slices ![0, 0] S256x256
  slices_S280x256_S24x256_256_0 : S280x256.Slices ![256, 0] S24x256
  inb_S5000x24_S5000x24_0_0 : ∀ a, (![0, 0] : Fin 2 → Nat) a + S5000x24.size a ≤ S5000x24.size a
  h_S5000x24 : 0 < S5000x24.numel
  shapeCasts_S5000x24_S5000x24 : S5000x24.ShapeCasts S5000x24
  inb_S5000x1_S5000x1_0_0 : ∀ a, (![0, 0] : Fin 2 → Nat) a + S5000x1.size a ≤ S5000x1.size a
  h_S5000x1 : 0 < S5000x1.numel
  broadcasts_S5000x1_S5000x24 : S5000x1.Broadcasts S5000x24
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S24x256_S24x256_0_0 : ∀ a, (![0, 0] : Fin 2 → Nat) a + S24x256.size a ≤ S24x256.size a
  h_S24x256 : 0 < S24x256.numel
  shapeCasts_S24x256_S24x256 : S24x256.ShapeCasts S24x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  dot_S32000x64_S64x24_S32000x24_1_0_0_1_n_n_wf : DotDims.WF S32000x64 S64x24 S32000x24 [1] [0] [0] [1] [] []
  scatter_S100000x24_S3200000x1_S3200000x24_1_0_0_1_wf : ScatterDims.WF S100000x24 S3200000x1 S3200000x24 [1] [0] [0] 1
  dot_S5000x256_S256x256_S5000x256_1_0_0_1_n_n_wf : DotDims.WF S5000x256 S256x256 S5000x256 [1] [0] [0] [1] [] []
  dot_S5000x24_S24x256_S5000x256_1_0_0_1_n_n_wf : DotDims.WF S5000x24 S24x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32000x64.size a ≤ S3200000x64.size a
  hwx0_0 : ∀ i : grid0.Coords, EltTy.bits .f32 = 32 ∨ (Rect.block (s := S3200000x64) S32000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x24.size a ≤ S64x24.size a
  hwx0_1 : ∀ i : grid0.Coords, EltTy.bits .f32 = 32 ∨ (Rect.block (s := S64x24) S64x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24.size a ≤ S24.size a
  hwx0_2 : ∀ i : grid0.Coords, EltTy.bits .f32 = 32 ∨ (Rect.block (s := S24) S24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32000x24.size a ≤ S3200000x24.size a
  hwx0_3 : ∀ i : grid0.Coords, EltTy.bits .f32 = 32 ∨ (Rect.block (s := S3200000x24) S32000x24.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x24.size a ≤ S100000x24.size a
  hwx1_1 : ∀ i : grid1.Coords, EltTy.bits .f32 = 32 ∨ (Rect.block (s := S100000x24) S5000x24.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S24x256.size a ≤ S24x256.size a
  hwx1_4 : ∀ i : grid1.Coords, EltTy.bits .f32 = 32 ∨ (Rect.block (s := S24x256) S24x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S100000x256.size a
  hwx1_6 : ∀ i : grid1.Coords, EltTy.bits .f32 = 32 ∨ (Rect.block (s := S100000x256) S5000x256.size (cc1_transform_6 i) (hinb1_6 i)).WholeWords (EltTy.packing .f32)

variable [Facts₀]

def dot_S32000x64_S64x24_S32000x24_1_0_0_1_n_n : DotDims S32000x64 S64x24 S32000x24 where
  lhsContracting := [1]
  rhsContracting := [0]
  lhsNonContracting := [0]
  rhsNonContracting := [1]
  lhsBatch := []
  rhsBatch := []
  wf := dot_S32000x64_S64x24_S32000x24_1_0_0_1_n_n_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x24_S24x256_S5000x256_1_0_0_1_n_n : DotDims S5000x24 S24x256 S5000x256 where
  lhsContracting := [1]
  rhsContracting := [0]
  lhsNonContracting := [0]
  rhsNonContracting := [1]
  lhsBatch := []
  rhsBatch := []
  wf := dot_S5000x24_S24x256_S5000x256_1_0_0_1_n_n_wf

abbrev win0_0 : Pipeline.Window sig grid0 :=
  Pipeline.Window.ofSpec (Memref.whole main_arg1) S32000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32000x24.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S5000x24.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S24x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S3200000x64 : Shape := ⟨2, ![3200000, 64]⟩
abbrev S100000x1 : Shape := ⟨2, ![100000, 1]⟩
abbrev S64x24 : Shape := ⟨2, ![64, 24]⟩
abbrev S24 : Shape := ⟨1, ![24]⟩
abbrev S280x256 : Shape := ⟨2, ![280, 256]⟩
abbrev S256 : Shape := ⟨1, ![256]⟩
abbrev S3200000 : Shape := ⟨1, ![3200000]⟩
abbrev S3200000x24 : Shape := ⟨2, ![3200000, 24]⟩
abbrev S1x24 : Shape := ⟨2, ![1, 24]⟩
abbrev S_ : Shape := ⟨0, ![]⟩
abbrev S100000x24 : Shape := ⟨2, ![100000, 24]⟩
abbrev S3200000x1 : Shape := ⟨2, ![3200000, 1]⟩
abbrev S100000x280 : Shape := ⟨2, ![100000, 280]⟩
abbrev S1x256 : Shape := ⟨2, ![1, 256]⟩

abbrev nBuf : Space → Nat
  | .hbm => 26
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000x64, .f32⟩
  | .hbm, ⟨2, _⟩ => ⟨S100000x1, .f32⟩
  | .hbm, ⟨3, _⟩ => ⟨S64x24, .f32⟩
  | .hbm, ⟨4, _⟩ => ⟨S24, .f32⟩
  | .hbm, ⟨5, _⟩ => ⟨S280x256, .f32⟩
  | .hbm, ⟨6, _⟩ => ⟨S256, .f32⟩
  | .hbm, ⟨7, _⟩ => ⟨S3200000, .i32⟩
  | .hbm, ⟨8, _⟩ => ⟨S3200000x24, .f32⟩
  | .hbm, ⟨9, _⟩ => ⟨S1x24, .f32⟩
  | .hbm, ⟨10, _⟩ => ⟨S3200000x24, .f32⟩
  | .hbm, ⟨11, _⟩ => ⟨S3200000x24, .f32⟩
  | .hbm, ⟨12, _⟩ => ⟨S_, .f32⟩
  | .hbm, ⟨13, _⟩ => ⟨S100000x24, .f32⟩
  | .hbm, ⟨14, _⟩ => ⟨S3200000x1, .i32⟩
  | .hbm, ⟨15, _⟩ => ⟨S100000x24, .f32⟩
  | .hbm, ⟨16, _⟩ => ⟨S100000x24, .f32⟩
  | .hbm, ⟨17, _⟩ => ⟨S100000x24, .f32⟩
  | .hbm, ⟨18, _⟩ => ⟨S100000x280, .f32⟩
  | .hbm, ⟨19, _⟩ => ⟨S100000x256, .f32⟩
  | .hbm, ⟨20, _⟩ => ⟨S1x256, .f32⟩
  | .hbm, ⟨21, _⟩ => ⟨S100000x256, .f32⟩
  | .hbm, ⟨22, _⟩ => ⟨S100000x256, .f32⟩
  | .hbm, ⟨23, _⟩ => ⟨S_, .f32⟩
  | .hbm, ⟨24, _⟩ => ⟨S100000x256, .f32⟩
  | .hbm, ⟨25, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S24_S1x24_1 : S24.BroadcastsInDim S1x24 (![1] : Fin 1 → Fin S1x24.rank)
  bcast_S1x24_S3200000x24_0_1 : S1x24.BroadcastsInDim S3200000x24 (![0, 1] : Fin 2 → Fin S3200000x24.rank)
  bcast_S_S100000x24 : S_.BroadcastsInDim S100000x24 (![] : Fin 0 → Fin S100000x24.rank)
  bcast_S3200000_S3200000x1_0 : S3200000.BroadcastsInDim S3200000x1 (![0] : Fin 1 → Fin S3200000x1.rank)
  bcast_S100000x1_S100000x24_0_1 : S100000x1.BroadcastsInDim S100000x24 (![0, 1] : Fin 2 → Fin S100000x24.rank)
  concatenates_S100000x256_S100000x24_S100000x280_d1 : Shape.Concatenates [S100000x256, S100000x24] S100000x280 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  dot_S3200000x64_S64x24_S3200000x24_1_0_0_1_n_n_wf : DotDims.WF S3200000x64 S64x24 S3200000x24 [1] [0] [0] [1] [] []
  scatter_S100000x24_S3200000x1_S3200000x24_1_0_0_1_wf : ScatterDims.WF S100000x24 S3200000x1 S3200000x24 [1] [0] [0] 1
  dot_S100000x280_S280x256_S100000x256_1_0_0_1_n_n_wf : DotDims.WF S100000x280 S280x256 S100000x256 [1] [0] [0] [1] [] []

variable [Facts₀]

def dot_S3200000x64_S64x24_S3200000x24_1_0_0_1_n_n : DotDims S3200000x64 S64x24 S3200000x24 where
  lhsContracting := [1]
  rhsContracting := [0]
  lhsNonContracting := [0]
  rhsNonContracting := [1]
  lhsBatch := []
  rhsBatch := []
  wf := dot_S3200000x64_S64x24_S3200000x24_1_0_0_1_n_n_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S100000x280_S280x256_S100000x256_1_0_0_1_n_n : DotDims S100000x280 S280x256 S100000x256 where
  lhsContracting := [1]
  rhsContracting := [0]
  lhsNonContracting := [0]
  rhsNonContracting := [1]
  lhsBatch := []
  rhsBatch := []
  wf := dot_S100000x280_S280x256_S100000x256_1_0_0_1_n_n_wf

class Facts : Prop extends Facts₀ where

variable [Facts]
-- ==== Proof.Spec.lean ====
/-
  The mathematics of the graph layer, stated over whole arrays and free of any program.

  Every edge `e` carries a message: its 64 features projected to 24 channels and shifted,
  `msg e j = (∑ k, ef e k * Wm k j) + bm j`.  The messages are summed onto the edges' destination nodes (that sum
  is the same host operation in both programs and is kept opaque here: `ah`).  A node `n` is then updated by one
  linear layer over the 280 features "its own 256, then its 24 aggregated channels scaled by the node's norm",
  shifted by `b1` and clipped below at zero.

  The layer is written twice.  `node` splits the contraction into the block of the first 256 rows of the weight
  and the block of its last 24 rows (two products added); `nodeJoined` contracts once over all 280 rows of the
  joined feature vector.  `nodeJoined_eq` says they agree: a sum over `Fin 280` is the sum over its first 256
  indices plus the sum over its last 24, which holds in any commutative monoid and so on the extended reals with
  no finiteness assumption.
-/
import Idealize.ShloMosaic.Lib.ValueIdx
import Idealize.ShloMosaic.PureOps.Ideal.Laws

noncomputable section

open scoped BigOperators

namespace Cert.EdgeNode

open Idealize.ShloMosaic Idealize.ShloMosaic.ValueIdx

/-- The message of edge `i 0` on channel `i 1`: the edge's features against the projection, plus the bias. -/
def msg (ef : FVec Ideal ⟨2, ![3200000, 64]⟩ .f32) (Wm : FVec Ideal ⟨2, ![64, 24]⟩ .f32) (bm : FVec Ideal ⟨1, ![24]⟩ .f32) :
    FVec Ideal ⟨2, ![3200000, 24]⟩ .f32 :=
  fun i => (∑ k : Fin 64, ef (ix2 (i 0) k) * Wm (ix2 k (i 1))) + bm (ix1 (i 1))

/-- Rows 0 … 255 of the layer's weight. -/
def wTop (W1 : FVec Ideal ⟨2, ![280, 256]⟩ .f32) : FVec Ideal ⟨2, ![256, 256]⟩ .f32 :=
  fun j => W1 (ix2 (⟨(j 0).val, by have := idx2_lt0 j; omega⟩ : Fin 280) (j 1))

/-- Rows 256 … 279 of the layer's weight. -/
def wBot (W1 : FVec Ideal ⟨2, ![280, 256]⟩ .f32) : FVec Ideal ⟨2, ![24, 256]⟩ .f32 :=
  fun j => W1 (ix2 (⟨256 + (j 0).val, by have := idx2_lt0 j; omega⟩ : Fin 280) (j 1))

/-- The node update with the contraction split in two blocks: own features against the top rows, scaled aggregate
    against the bottom rows, the two products added, then the bias and the clip at zero. -/
def node (h : FVec Ideal ⟨2, ![100000, 256]⟩ .f32) (ah : FVec Ideal ⟨2, ![100000, 24]⟩ .f32)
    (nrm : FVec Ideal ⟨2, ![100000, 1]⟩ .f32) (Wh : FVec Ideal ⟨2, ![256, 256]⟩ .f32) (Wa : FVec Ideal ⟨2, ![24, 256]⟩ .f32)
    (b1 : FVec Ideal ⟨1, ![256]⟩ .f32) : FVec Ideal ⟨2, ![100000, 256]⟩ .f32 :=
  fun i => max (((∑ k : Fin 256, h (ix2 (i 0) k) * Wh (ix2 k (i 1)))
      + (∑ k : Fin 24, (ah (ix2 (i 0) k) * nrm (ix2 (i 0) (0 : Fin 1))) * Wa (ix2 k (i 1)))) + b1 (ix1 (i 1))) 0

/-- The joined feature vector of node `n`: its own 256 features, then its 24 scaled aggregated channels. -/
def joined (h : FVec Ideal ⟨2, ![100000, 256]⟩ .f32) (ah : FVec Ideal ⟨2, ![100000, 24]⟩ .f32)
    (nrm : FVec Ideal ⟨2, ![100000, 1]⟩ .f32) (n : Fin 100000) (k : Fin 280) : EReal :=
  if hk : k.val < 256 then h (ix2 n (⟨k.val, hk⟩ : Fin 256))
  else ah (ix2 n (⟨k.val - 256, by have := k.isLt; omega⟩ : Fin 24)) * nrm (ix2 n (0 : Fin 1))

/-- The node update with ONE contraction over the 280 joined features. -/
def nodeJoined (h : FVec Ideal ⟨2, ![100000, 256]⟩ .f32) (ah : FVec Ideal ⟨2, ![100000, 24]⟩ .f32)
    (nrm : FVec Ideal ⟨2, ![100000, 1]⟩ .f32) (W1 : FVec Ideal ⟨2, ![280, 256]⟩ .f32)
    (b1 : FVec Ideal ⟨1, ![256]⟩ .f32) : FVec Ideal ⟨2, ![100000, 256]⟩ .f32 :=
  fun i => max ((∑ k : Fin 280, joined h ah nrm (i 0) k * W1 (ix2 k (i 1))) + b1 (ix1 (i 1))) 0

/-- A sum over 280 indices is the sum over the first 256 plus the sum over the last 24. -/
theorem sum_280 {M : Type} [AddCommMonoid M] (f : Fin 280 → M) :
    ∑ k : Fin 280, f k = (∑ k : Fin 256, f ⟨k.val, by have := k.isLt; omega⟩) + ∑ k : Fin 24, f ⟨256 + k.val, by have := k.isLt; omega⟩ := by
  have := Fin.sum_univ_add (a := 256) (b := 24) (f := f)
  exact this

/-- One contraction over the joined features is the two block products added. -/
theorem nodeJoined_eq (h : FVec Ideal ⟨2, ![100000, 256]⟩ .f32) (ah : FVec Ideal ⟨2, ![100000, 24]⟩ .f32)
    (nrm : FVec Ideal ⟨2, ![100000, 1]⟩ .f32) (W1 : FVec Ideal ⟨2, ![280, 256]⟩ .f32) (b1 : FVec Ideal ⟨1, ![256]⟩ .f32) :
    nodeJoined h ah nrm W1 b1 = node h ah nrm (wTop W1) (wBot W1) b1 := by
  funext i
  unfold nodeJoined node
  rw [sum_280]
  refine congrArg (fun z => max (z + b1 (ix1 (i 1))) 0) ?_
  refine congrArg₂ (· + ·) (Finset.sum_congr rfl fun k _ => ?_) (Finset.sum_congr rfl fun k _ => ?_)
  · have hk : (⟨k.val, by have := k.isLt; omega⟩ : Fin 280).val < 256 := k.isLt
    unfold joined wTop
    rw [dif_pos hk]
  · have hk : ¬ (⟨256 + k.val, by have := k.isLt; omega⟩ : Fin 280).val < 256 := by simp
    unfold joined wBot
    rw [dif_neg hk]
    have e : (⟨(⟨256 + k.val, by have := k.isLt; omega⟩ : Fin 280).val - 256, by have := k.isLt; simp⟩ : Fin 24) = k :=
      Fin.ext (by simp)
    rw [e]

end Cert.EdgeNode

end
-- ==== Proof.EdgeBlocks.lean ====
/-
  What the first region leaves in its output array: the edge messages.

  The region walks the 3200000 edges in a hundred blocks of 32000 rows.  At each block its body multiplies the
  block's [32000, 64] features into the whole [64, 24] projection (a product into a zero accumulator: at the ideal
  instance the plain sum over the 64 shared indices, the changes of float format being the identity) and adds the
  bias row.  Read at row `p` and column `q` of the block this is `(∑ k, x[p, k] * w[k, q]) + b[q]`; row `p` of
  block `t` is row `32000 t + p` of the array, so every written block is the matching block of `EdgeNode.msg`,
  and the hundred blocks tile the array.
-/
import proofs.«112761_j47278999994910_1_alg».proof.Proof.Gen.KernelIdeal.Frame
import proofs.«112761_j47278999994910_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem
open Idealize.ShloMosaic.Pipeline (Dat)
namespace Cert.KernelIdeal.EdgeBlocks
open Cert.KernelIdeal Cert.KernelIdeal.Gen Idealize.ShloMosaic.ValueIdx
variable (V : (c : Dev nD) → (b : Ref sig .tc) → Buf (Elt Ideal) ((c : Thread nD τ).loc b))

/-! ## The body's value at an index of its block -/

/-- The contraction's left index keeps the output's row. -/
theorem lhs_row (i : S32000x24.Idx) (q : dot_S32000x64_S64x24_S32000x24_1_0_0_1_n_n.contr.Idx) :
    (dot_S32000x64_S64x24_S32000x24_1_0_0_1_n_n.lhsIdx i q 0).val = (i 0).val := by
  unfold DotDims.lhsIdx
  rw [dif_neg (show ¬(0 : Fin S32000x64.rank) ∈ dot_S32000x64_S64x24_S32000x24_1_0_0_1_n_n.lhsBatch by decide), dif_pos (show (0 : Fin S32000x64.rank) ∈ dot_S32000x64_S64x24_S32000x24_1_0_0_1_n_n.lhsNonContracting by decide)]
  rfl
/-- The contraction's left index runs its column over the summed axis. -/
theorem lhs_col (i : S32000x24.Idx) (q : dot_S32000x64_S64x24_S32000x24_1_0_0_1_n_n.contr.Idx) :
    (dot_S32000x64_S64x24_S32000x24_1_0_0_1_n_n.lhsIdx i q 1).val = (q ⟨0, by decide⟩).val :=
  dot_S32000x64_S64x24_S32000x24_1_0_0_1_n_n.lhsIdx_val_of_single rfl i q
/-- The contraction's right index runs its row over the summed axis. -/
theorem rhs_row (i : S32000x24.Idx) (q : dot_S32000x64_S64x24_S32000x24_1_0_0_1_n_n.contr.Idx) :
    (dot_S32000x64_S64x24_S32000x24_1_0_0_1_n_n.rhsIdx i q 0).val = (q ⟨0, by decide⟩).val :=
  dot_S32000x64_S64x24_S32000x24_1_0_0_1_n_n.rhsIdx_val_of_single rfl i q
/-- The contraction's right index keeps the output's column. -/
theorem rhs_col (i : S32000x24.Idx) (q : dot_S32000x64_S64x24_S32000x24_1_0_0_1_n_n.contr.Idx) :
    (dot_S32000x64_S64x24_S32000x24_1_0_0_1_n_n.rhsIdx i q 1).val = (i 1).val := by
  unfold DotDims.rhsIdx
  rw [dif_neg (show ¬(1 : Fin S64x24.rank) ∈ dot_S32000x64_S64x24_S32000x24_1_0_0_1_n_n.rhsBatch by decide), dif_pos (show (1 : Fin S64x24.rank) ∈ dot_S32000x64_S64x24_S32000x24_1_0_0_1_n_n.rhsNonContracting by decide)]
  rfl

/-- The product into the zero accumulator, read at row `p` and column `q`: the sum over the 64 shared indices. -/
theorem product_at (a : FVec Ideal S32000x64 .bf16) (b : FVec Ideal S64x24 .bf16) (p : Fin 32000) (q : Fin 24) :
    matmul dot_S32000x64_S64x24_S32000x24_1_0_0_1_n_n none a b (constant (F := Ideal) S32000x24 .f32 0x00000000#32) (ix2 p q)
      = ∑ k : Fin 64, a (ix2 p k) * b (ix2 k q) := by
  simp only [matmul]
  rw [Ideal.matmul_constant_zero_apply, ← Equiv.sum_comp (contrEquiv1 dot_S32000x64_S64x24_S32000x24_1_0_0_1_n_n 64 rfl rfl).symm]
  refine Finset.sum_congr rfl fun k _ => ?_
  have hk := contrEquiv1_symm_val dot_S32000x64_S64x24_S32000x24_1_0_0_1_n_n 64 rfl rfl k
  have el : dot_S32000x64_S64x24_S32000x24_1_0_0_1_n_n.lhsIdx (ix2 p q) ((contrEquiv1 dot_S32000x64_S64x24_S32000x24_1_0_0_1_n_n 64 rfl rfl).symm k) = ix2 p k := funext fun x => Fin.ext (by
    match x with
    | ⟨0, _⟩ => exact lhs_row _ _
    | ⟨1, _⟩ => exact (lhs_col _ _).trans hk)
  have er : dot_S32000x64_S64x24_S32000x24_1_0_0_1_n_n.rhsIdx (ix2 p q) ((contrEquiv1 dot_S32000x64_S64x24_S32000x24_1_0_0_1_n_n 64 rfl rfl).symm k) = ix2 k q := funext fun x => Fin.ext (by
    match x with
    | ⟨0, _⟩ => exact (rhs_row _ _).trans hk
    | ⟨1, _⟩ => exact rhs_col _ _)
  rw [el, er]

/-- The body's result at row `p`, column `q` of its block: the row of the first operand against the column of the
    second, plus the third operand's entry of that column. -/
theorem body_at (x0 : Vec Ideal S32000x64 .f32) (x1 : Vec Ideal S64x24 .f32) (x2 : Vec Ideal S24 .f32) (p : Fin 32000) (q : Fin 24) :
    k0_pay1 (F := Ideal) x0 x1 x2 (ix2 p q) = (∑ k : Fin 64, x0 (ix2 p k) * x1 (ix2 k q)) + x2 (ix1 q) := by
  unfold k0_pay1
  show matmul dot_S32000x64_S64x24_S32000x24_1_0_0_1_n_n none (truncf .bf16 x0 bitsLt_bf16_f32) (truncf .bf16 x1 bitsLt_bf16_f32) (constant (F := Ideal) S32000x24 .f32 0x00000000#32) (ix2 p q)
      + broadcastTo S32000x24 (shapeCast S1x24 x2 shapeCasts_S24_S1x24) broadcasts_S1x24_S32000x24 (ix2 p q) = _
  rw [product_at, broadcastTo_1b_ab_apply, shapeCast_a_1a_apply]
  rfl

/-! ## The blocks -/

theorem zero_off2 : (![0, 0] : Fin 2 → Nat) = fun _ => 0 := funext fun a => by fin_cases a <;> rfl
theorem zero_off1 : (![0] : Fin 1 → Nat) = fun _ => 0 := funext fun a => by fin_cases a <;> rfl

/-- Where each window's block sits at grid point `t`: the edge features and the messages move down by one block of rows
    per point; the projection and the bias are the whole of their arrays at every point. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The body's result at an index `j` of its block, with the index's own coordinates. -/
theorem body_at_idx (x0 : Vec Ideal S32000x64 .f32) (x1 : Vec Ideal S64x24 .f32) (x2 : Vec Ideal S24 .f32) (j : S32000x24.Idx) :
    k0_pay1 (F := Ideal) x0 x1 x2 j
      = (∑ k : Fin 64, x0 (ix2 (j 0 : Fin 32000) k) * x1 (ix2 k (j 1 : Fin 24))) + x2 (ix1 (j 1 : Fin 24)) := by
  obtain ⟨p, q, rfl⟩ : ∃ (p : Fin 32000) (q : Fin 24), j = ix2 p q := ⟨j 0, j 1, eq_ix2 j⟩
  exact body_at x0 x1 x2 p q

/-- What grid point `t` writes back is block `t` of the message array. -/
theorem flushed_block (c : Dev nD) (t : Fin cfg0.N) :
    (dat0 (F := Ideal) V c).flushed 3 t = ((cfg0.win 3).blk t).view.read (Elt Ideal) (Cert.EdgeNode.msg (V c main_arg1) (V c main_arg3) (V c main_arg4)) := by
  show (cfg0.win 3).cut (grid0.coords t) ((dat0 (F := Ideal) V c).after 3 t) = _
  rw [after0_3]
  unfold out0_3
  rw [View.canon_unit_zero zero_off2]
  simp only [View.ld_unit_zero (S := S32000x64) zero_off2, View.ld_unit_zero (S := S64x24) zero_off2, View.ld_unit_zero (S := S24) zero_off1]
  obtain ⟨e00, e01, e10, e11, e20, e30, e31⟩ := block_index t
  funext j
  show k0_pay1 (F := Ideal) (iblk0 V c 0 t) (iblk0 V c 1 t) (iblk0 V c 2 t) j
      = Cert.EdgeNode.msg (V c main_arg1) (V c main_arg3) (V c main_arg4) (((cfg0.win 3).blk t).view.emb j)
  refine (body_at_idx _ _ _ j).trans ?_
  unfold Cert.EdgeNode.msg
  refine congrArg₂ (· + ·) (Finset.sum_congr rfl fun k _ => congrArg₂ (· * ·) ?_ ?_) ?_
  · -- the edge's features: row `j 0` of block `t` is row `t * 32000 + j 0` of the array
    show V c main_arg1 (((cfg0.win 0).blk t).view.emb (ix2 (j 0 : Fin 32000) k))
        = V c main_arg1 (ix2 (((cfg0.win 3).blk t).view.emb j 0) k)
    refine congrArg _ (funext fun a => Fin.ext ?_)
    match a with
    | ⟨0, _⟩ =>
      show win0_0.index t (0 : Fin 2) * 32000 + 1 * (j 0).val = win0_3.index t (0 : Fin 2) * 32000 + 1 * (j 0).val
      omega
    | ⟨1, _⟩ =>
      show win0_0.index t (1 : Fin 2) * 64 + 1 * k.val = k.val
      omega
  · -- the projection is read whole
    show V c main_arg3 (((cfg0.win 1).blk t).view.emb (ix2 k (j 1 : Fin 24)))
        = V c main_arg3 (ix2 k (((cfg0.win 3).blk t).view.emb j 1))
    refine congrArg _ (funext fun a => Fin.ext ?_)
    match a with
    | ⟨0, _⟩ =>
      show win0_1.index t (0 : Fin 2) * 64 + 1 * k.val = k.val
      omega
    | ⟨1, _⟩ =>
      show win0_1.index t (1 : Fin 2) * 24 + 1 * (j 1).val = win0_3.index t (1 : Fin 2) * 24 + 1 * (j 1).val
      omega
  · -- the bias is read whole
    show V c main_arg4 (((cfg0.win 2).blk t).view.emb (ix1 (j 1 : Fin 24)))
        = V c main_arg4 (ix1 (((cfg0.win 3).blk t).view.emb j 1))
    refine congrArg _ (funext fun a => Fin.ext ?_)
    match a with
    | ⟨0, _⟩ =>
      show win0_2.index t (0 : Fin 1) * 24 + 1 * (j 1).val = win0_3.index t (1 : Fin 2) * 24 + 1 * (j 1).val
      omega

/-- An index of the message array lies in grid point `t`'s block iff each coordinate lies in the block's range. -/
theorem mem_block (t : Fin cfg0.N) (i : S3200000x24.Idx) :
    i ∈ ((cfg0.win 3).blk t).view.set ↔ ∀ a : Fin 2, win0_3.index t a * S32000x24.size a ≤ (i a).val ∧ (i a).val < win0_3.index t a * S32000x24.size a + S32000x24.size a := by
  show i ∈ ((View.whole main_v0).slice (win0_3.rect t)).set ↔ _
  rw [View.set_slice_whole, Rect.mem_set_unit]
  exact Iff.rfl

/-- The hundred blocks of 32000 rows tile the 3200000 rows: row `r` lies in the block of grid point `r / 32000`. -/
theorem covered (i : S3200000x24.Idx) :
    ∃ t : Fin cfg0.N, (cfg0.win 3).flush t = true ∧ i ∈ ((cfg0.win 3).blk t).view.set := by
  have hi0 : (i 0).val < 3200000 := (i 0).isLt
  have hi1 : (i 1).val < 24 := (i 1).isLt
  have ht : (i 0).val / 32000 < cfg0.N := by show _ < 100; omega
  obtain ⟨-, -, -, -, -, e30, e31⟩ := block_index ⟨(i 0).val / 32000, ht⟩
  refine ⟨⟨(i 0).val / 32000, ht⟩, flush0_3 _, ?_⟩
  rw [mem_block]
  intro a
  match a with
  | ⟨0, _⟩ =>
    show win0_3.index ⟨(i 0).val / 32000, ht⟩ (0 : Fin 2) * 32000 ≤ (i 0).val ∧ (i 0).val < win0_3.index ⟨(i 0).val / 32000, ht⟩ (0 : Fin 2) * 32000 + 32000
    rw [e30]
    show (i 0).val / 32000 * 32000 ≤ (i 0).val ∧ (i 0).val < (i 0).val / 32000 * 32000 + 32000
    omega
  | ⟨1, _⟩ =>
    show win0_3.index ⟨(i 0).val / 32000, ht⟩ (1 : Fin 2) * 24 ≤ (i 1).val ∧ (i 1).val < win0_3.index ⟨(i 0).val / 32000, ht⟩ (1 : Fin 2) * 24 + 24
    rw [e31]
    omega

/-- The array of edge messages after the first region's run: every block the region writes back is the matching block of `EdgeNode.msg` of the region's three input arrays, and the blocks tile the array. -/
theorem edges_array (c : Dev nD) :
    (dat0 (F := Ideal) V c).arrAt 3 cfg0.N = Cert.EdgeNode.msg (V c main_arg1) (V c main_arg3) (V c main_arg4) := by
  exact (dat0 (F := Ideal) V c).arrAt_eq_of_cover 3 _ (fun t _ => flushed_block V c t) covered

end Cert.KernelIdeal.EdgeBlocks
end
-- ==== Proof.NodeBlocks.lean ====
/-
  What the second region leaves in its output array: the updated nodes.

  The region walks the 100000 nodes in twenty blocks of 5000 rows.  At each block its body scales the block's
  [5000, 24] aggregated channels by the norm column, multiplies the block's [5000, 256] own features into the top
  [256, 256] weight block and the scaled channels into the bottom [24, 256] weight block (two products into zero
  accumulators: plain sums at the ideal instance, the changes of float format being the identity), adds the two,
  adds the bias row and takes the maximum with zero.  Row `p` of block `t` is row `5000 t + p` of each row-blocked
  array and the weight blocks and the bias are read whole, so every written block is the matching block of
  `EdgeNode.node`, and the twenty blocks tile the array.
-/
import proofs.«112761_j47278999994910_1_alg».proof.Proof.Gen.KernelIdeal.Frame
import proofs.«112761_j47278999994910_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem
open Idealize.ShloMosaic.Pipeline (Dat)
namespace Cert.KernelIdeal.NodeBlocks
open Cert.KernelIdeal Cert.KernelIdeal.Gen Idealize.ShloMosaic.ValueIdx
variable (V : (c : Dev nD) → (b : Ref sig .tc) → Buf (Elt Ideal) ((c : Thread nD τ).loc b))

/-! ## The two products read at an index

Each product contracts the second axis of its left operand with the first axis of its right operand and starts from a
zero accumulator, so its entry `(p, q)` is the plain sum `∑ k, x[p,k] · w[k,q]`. The four coordinate facts per
product say which coordinate of the output index or of the contraction index each operand axis reads. -/

theorem own_lhs_0 (i : S5000x256.Idx) (r : dot_S5000x256_S256x256_S5000x256_1_0_0_1_n_n.contr.Idx) :
    (dot_S5000x256_S256x256_S5000x256_1_0_0_1_n_n.lhsIdx i r 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem own_lhs_1 (i : S5000x256.Idx) (r : dot_S5000x256_S256x256_S5000x256_1_0_0_1_n_n.contr.Idx) :
    (dot_S5000x256_S256x256_S5000x256_1_0_0_1_n_n.lhsIdx i r 1).val = (r ⟨0, by decide⟩).val :=
  dot_S5000x256_S256x256_S5000x256_1_0_0_1_n_n.lhsIdx_val_of_single rfl i r
theorem own_rhs_0 (i : S5000x256.Idx) (r : dot_S5000x256_S256x256_S5000x256_1_0_0_1_n_n.contr.Idx) :
    (dot_S5000x256_S256x256_S5000x256_1_0_0_1_n_n.rhsIdx i r 0).val = (r ⟨0, by decide⟩).val :=
  dot_S5000x256_S256x256_S5000x256_1_0_0_1_n_n.rhsIdx_val_of_single rfl i r
theorem own_rhs_1 (i : S5000x256.Idx) (r : dot_S5000x256_S256x256_S5000x256_1_0_0_1_n_n.contr.Idx) :
    (dot_S5000x256_S256x256_S5000x256_1_0_0_1_n_n.rhsIdx i r 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The product of the nodes' own features with the top rows of the weight, at `(p, q)`. -/
theorem own_product_apply (x : FVec Ideal S5000x256 .bf16) (w : FVec Ideal S256x256 .bf16) (p : Fin 5000) (q : Fin 256) :
    matmul dot_S5000x256_S256x256_S5000x256_1_0_0_1_n_n none x w (constant (F := Ideal) S5000x256 .f32 0x00000000#32) (ix2 p q)
      = ∑ k : Fin 256, x (ix2 p k) * w (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact own_lhs_0 _ _
    | ⟨1, _⟩ => exact (own_lhs_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (own_rhs_0 _ _).trans hk
    | ⟨1, _⟩ => exact own_rhs_1 _ _)
  rw [el, er]

theorem agg_lhs_0 (i : S5000x256.Idx) (r : dot_S5000x24_S24x256_S5000x256_1_0_0_1_n_n.contr.Idx) :
    (dot_S5000x24_S24x256_S5000x256_1_0_0_1_n_n.lhsIdx i r 0).val = (i 0).val := by
  unfold DotDims.lhsIdx
  rw [dif_neg (show ¬(0 : Fin S5000x24.rank) ∈ dot_S5000x24_S24x256_S5000x256_1_0_0_1_n_n.lhsBatch by decide), dif_pos (show (0 : Fin S5000x24.rank) ∈ dot_S5000x24_S24x256_S5000x256_1_0_0_1_n_n.lhsNonContracting by decide)]
  rfl
theorem agg_lhs_1 (i : S5000x256.Idx) (r : dot_S5000x24_S24x256_S5000x256_1_0_0_1_n_n.contr.Idx) :
    (dot_S5000x24_S24x256_S5000x256_1_0_0_1_n_n.lhsIdx i r 1).val = (r ⟨0, by decide⟩).val :=
  dot_S5000x24_S24x256_S5000x256_1_0_0_1_n_n.lhsIdx_val_of_single rfl i r
theorem agg_rhs_0 (i : S5000x256.Idx) (r : dot_S5000x24_S24x256_S5000x256_1_0_0_1_n_n.contr.Idx) :
    (dot_S5000x24_S24x256_S5000x256_1_0_0_1_n_n.rhsIdx i r 0).val = (r ⟨0, by decide⟩).val :=
  dot_S5000x24_S24x256_S5000x256_1_0_0_1_n_n.rhsIdx_val_of_single rfl i r
theorem agg_rhs_1 (i : S5000x256.Idx) (r : dot_S5000x24_S24x256_S5000x256_1_0_0_1_n_n.contr.Idx) :
    (dot_S5000x24_S24x256_S5000x256_1_0_0_1_n_n.rhsIdx i r 1).val = (i 1).val := by
  unfold DotDims.rhsIdx
  rw [dif_neg (show ¬(1 : Fin S24x256.rank) ∈ dot_S5000x24_S24x256_S5000x256_1_0_0_1_n_n.rhsBatch by decide), dif_pos (show (1 : Fin S24x256.rank) ∈ dot_S5000x24_S24x256_S5000x256_1_0_0_1_n_n.rhsNonContracting by decide)]
  rfl

/-- The product of the scaled aggregated channels with the bottom rows of the weight, at `(p, q)`. -/
theorem agg_product_apply (x : FVec Ideal S5000x24 .bf16) (w : FVec Ideal S24x256 .bf16) (p : Fin 5000) (q : Fin 256) :
    matmul dot_S5000x24_S24x256_S5000x256_1_0_0_1_n_n none x w (constant (F := Ideal) S5000x256 .f32 0x00000000#32) (ix2 p q)
      = ∑ k : Fin 24, x (ix2 p k) * w (ix2 k q) := by
  simp only [matmul]
  rw [Ideal.matmul_constant_zero_apply, ← Equiv.sum_comp (contrEquiv1 dot_S5000x24_S24x256_S5000x256_1_0_0_1_n_n 24 rfl rfl).symm]
  refine Finset.sum_congr rfl fun k _ => ?_
  have hk := contrEquiv1_symm_val dot_S5000x24_S24x256_S5000x256_1_0_0_1_n_n 24 rfl rfl k
  have el : dot_S5000x24_S24x256_S5000x256_1_0_0_1_n_n.lhsIdx (ix2 p q) ((contrEquiv1 dot_S5000x24_S24x256_S5000x256_1_0_0_1_n_n 24 rfl rfl).symm k) = ix2 p k := funext fun a => Fin.ext (by
    match a with
    | ⟨0, _⟩ => exact agg_lhs_0 _ _
    | ⟨1, _⟩ => exact (agg_lhs_1 _ _).trans hk)
  have er : dot_S5000x24_S24x256_S5000x256_1_0_0_1_n_n.rhsIdx (ix2 p q) ((contrEquiv1 dot_S5000x24_S24x256_S5000x256_1_0_0_1_n_n 24 rfl rfl).symm k) = ix2 k q := funext fun a => Fin.ext (by
    match a with
    | ⟨0, _⟩ => exact (agg_rhs_0 _ _).trans hk
    | ⟨1, _⟩ => exact agg_rhs_1 _ _)
  rw [el, er]

/-! ## The body's payload at an index -/

/-- The norm column `[5000,1]` broadcast along the 24 channels reads, at `(p, k)`, the column's entry of row `p`. -/
theorem norm_column_apply (v : FVec Ideal S5000x1 .f32) (h : S5000x1.Broadcasts S5000x24) (p : Fin 5000) (k : Fin 24) :
    broadcastTo S5000x24 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The bias `[256]` cast to one row and broadcast over the 5000 rows reads, at `(p, q)`, the bias at `q`. -/
theorem bias_rows_apply (v : FVec Ideal S256 .f32) (hc : S256.ShapeCasts S1x256) (hb : S1x256.Broadcasts S5000x256)
    (p : Fin 5000) (q : Fin 256) :
    broadcastTo S5000x256 (shapeCast S1x256 v hc) hb (ix2 p q) = v (ix1 q) := by
  rw [broadcastTo_1b_ab_apply, shapeCast_a_1a_apply]

/-- The payload at `(p, q)`: the two products added, the bias added, the result clipped below at zero. The arguments come
    in the order the body loads them: aggregated channels, norm column, own features, the two weight blocks, the bias. -/
theorem payload_apply (v0 : Vec Ideal S5000x24 .f32) (v2 : Vec Ideal S5000x1 .f32) (v5 : Vec Ideal S5000x256 .f32)
    (v8 : Vec Ideal S256x256 .f32) (v11 : Vec Ideal S24x256 .f32) (v17 : Vec Ideal S256 .f32) (p : Fin 5000) (q : Fin 256) :
    k1_pay1 (F := Ideal) v0 v2 v5 v8 v11 v17 (ix2 p q)
      = max (((∑ k : Fin 256, v5 (ix2 p k) * v8 (ix2 k q))
          + (∑ k : Fin 24, (v0 (ix2 p k) * v2 (ix2 p (0 : Fin 1))) * v11 (ix2 k q))) + v17 (ix1 q)) 0 := by
  unfold k1_pay1
  rw [maximumf_apply, broadcast_apply, addf_apply, addf_apply, own_product_apply, agg_product_apply, bias_rows_apply]
  rw [show Scalar.ofBits (F := Ideal) .f32 0x00000000#32 = 0 from Ideal.ofBits_zero_f32]
  simp only [truncf_apply, shapeCast_self, mulf_apply, norm_column_apply]

/-- The payload of six blocks at `(p, q)` is the updated node at array index `i`, once each block entry the payload
    reads is the matching array entry: row `p` of the three row blocks is row `i 0` of their arrays, and column `q` of
    the weight blocks and of the bias is column `i 1`. -/
theorem payload_eq_node (h : FVec Ideal S100000x256 .f32) (ah : FVec Ideal S100000x24 .f32) (nrm : FVec Ideal S100000x1 .f32)
    (Wh : FVec Ideal S256x256 .f32) (Wa : FVec Ideal S24x256 .f32) (b1 : FVec Ideal S256 .f32)
    (x0 : Vec Ideal S5000x256 .f32) (x1 : Vec Ideal S5000x24 .f32) (x2 : Vec Ideal S5000x1 .f32)
    (x3 : Vec Ideal S256x256 .f32) (x4 : Vec Ideal S24x256 .f32) (x5 : Vec Ideal S256 .f32)
    (i : S100000x256.Idx) (p : Fin 5000) (q : Fin 256)
    (e0 : ∀ k : Fin 256, x0 (ix2 p k) = h (ix2 (i 0) k))
    (e1 : ∀ k : Fin 24, x1 (ix2 p k) = ah (ix2 (i 0) k))
    (e2 : x2 (ix2 p (0 : Fin 1)) = nrm (ix2 (i 0) (0 : Fin 1)))
    (e3 : ∀ k : Fin 256, x3 (ix2 k q) = Wh (ix2 k (i 1)))
    (e4 : ∀ k : Fin 24, x4 (ix2 k q) = Wa (ix2 k (i 1)))
    (e5 : x5 (ix1 q) = b1 (ix1 (i 1))) :
    k1_pay1 (F := Ideal) x1 x2 x0 x3 x4 x5 (ix2 p q) = Cert.EdgeNode.node h ah nrm Wh Wa b1 i := by
  rw [payload_apply]
  unfold Cert.EdgeNode.node
  simp only [e0, e1, e2, e3, e4, e5]

/-! ## The windows over the grid -/

theorem zero_pair : (![0, 0] : Fin 2 → Nat) = fun _ => 0 := funext fun a => by fin_cases a <;> rfl
theorem zero_single : (![0] : Fin 1 → Nat) = fun _ => 0 := funext fun a => by fin_cases a <;> rfl

/-- The windows' index maps, decided over the 20 grid points: the three row-blocked inputs and the output sit at block
    row `t`, block column 0; the two weight blocks and the bias are whole. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What point `t` writes back to the output array is block `t` of the updated nodes: entry `(p, q)` of the block is the
    payload of the six input blocks at `(p, q)`, and row `p` of block `t` is row `5000 · t + p` of each row-blocked array. -/
theorem flushed_eq (c : Dev nD) (t : Fin cfg1.N) :
    (dat1 (F := Ideal) V c).flushed 6 t = ((cfg1.win 6).blk t).view.read (Elt Ideal)
      (Cert.EdgeNode.node (V c main_arg0) (V c main_v3) (V c main_arg2) (V c main_v4) (V c main_v5) (V c main_arg6)) := by
  show (cfg1.win 6).cut (grid1.coords t) ((dat1 V c).after 6 t) = _
  rw [after1_6]
  unfold out1_6
  rw [View.canon_unit_zero zero_pair]
  simp only [View.ld_unit_zero (S := S5000x24) zero_pair, View.ld_unit_zero (S := S5000x1) zero_pair,
    View.ld_unit_zero (S := S5000x256) zero_pair, View.ld_unit_zero (S := S256x256) zero_pair,
    View.ld_unit_zero (S := S24x256) zero_pair, View.ld_unit_zero (S := S256) zero_single]
  funext j
  obtain ⟨p, q, rfl⟩ : ∃ (p : Fin 5000) (q : Fin 256), j = ix2 p q := ⟨j 0, j 1, eq_ix2 j⟩
  show k1_pay1 (F := Ideal) (iblk1 V c 1 t) (iblk1 V c 2 t) (iblk1 V c 0 t) (iblk1 V c 3 t) (iblk1 V c 4 t) (iblk1 V c 5 t) (ix2 p q)
    = Cert.EdgeNode.node (V c main_arg0) (V c main_v3) (V c main_arg2) (V c main_v4) (V c main_v5) (V c main_arg6)
        (((cfg1.win 6).blk t).view.emb (ix2 p q))
  obtain ⟨f00, f01, f10, f11, f20, f21, f30, f31, f40, f41, f50, f60, f61⟩ := index_facts t
  refine payload_eq_node _ _ _ _ _ _ _ _ _ _ _ _ _ p q ?_ ?_ ?_ ?_ ?_ ?_
  · intro k
    show V c main_arg0 (((cfg1.win 0).blk t).view.emb (ix2 p k))
      = V c main_arg0 (ix2 (((cfg1.win 6).blk t).view.emb (ix2 p q) 0) k)
    refine congrArg _ (funext fun a => Fin.ext ?_)
    match a with
    | ⟨0, _⟩ =>
      show win1_0.index t (0 : Fin 2) * 5000 + 1 * p.val = win1_6.index t (0 : Fin 2) * 5000 + 1 * p.val
      rw [f00, f60]
    | ⟨1, _⟩ =>
      show win1_0.index t (1 : Fin 2) * 256 + 1 * k.val = k.val
      rw [f01]; omega
  · intro k
    show V c main_v3 (((cfg1.win 1).blk t).view.emb (ix2 p k))
      = V c main_v3 (ix2 (((cfg1.win 6).blk t).view.emb (ix2 p q) 0) k)
    refine congrArg _ (funext fun a => Fin.ext ?_)
    match a with
    | ⟨0, _⟩ =>
      show win1_1.index t (0 : Fin 2) * 5000 + 1 * p.val = win1_6.index t (0 : Fin 2) * 5000 + 1 * p.val
      rw [f10, f60]
    | ⟨1, _⟩ =>
      show win1_1.index t (1 : Fin 2) * 24 + 1 * k.val = k.val
      rw [f11]; omega
  · show V c main_arg2 (((cfg1.win 2).blk t).view.emb (ix2 p (0 : Fin 1)))
      = V c main_arg2 (ix2 (((cfg1.win 6).blk t).view.emb (ix2 p q) 0) (0 : Fin 1))
    refine congrArg _ (funext fun a => Fin.ext ?_)
    match a with
    | ⟨0, _⟩ =>
      show win1_2.index t (0 : Fin 2) * 5000 + 1 * p.val = win1_6.index t (0 : Fin 2) * 5000 + 1 * p.val
      rw [f20, f60]
    | ⟨1, _⟩ =>
      show win1_2.index t (1 : Fin 2) * 1 + 1 * 0 = 0
      rw [f21]
  · intro k
    show V c main_v4 (((cfg1.win 3).blk t).view.emb (ix2 k q))
      = V c main_v4 (ix2 k (((cfg1.win 6).blk t).view.emb (ix2 p q) 1))
    refine congrArg _ (funext fun a => Fin.ext ?_)
    match a with
    | ⟨0, _⟩ =>
      show win1_3.index t (0 : Fin 2) * 256 + 1 * k.val = k.val
      rw [f30]; omega
    | ⟨1, _⟩ =>
      show win1_3.index t (1 : Fin 2) * 256 + 1 * q.val = win1_6.index t (1 : Fin 2) * 256 + 1 * q.val
      rw [f31, f61]
  · intro k
    show V c main_v5 (((cfg1.win 4).blk t).view.emb (ix2 k q))
      = V c main_v5 (ix2 k (((cfg1.win 6).blk t).view.emb (ix2 p q) 1))
    refine congrArg _ (funext fun a => Fin.ext ?_)
    match a with
    | ⟨0, _⟩ =>
      show win1_4.index t (0 : Fin 2) * 24 + 1 * k.val = k.val
      rw [f40]; omega
    | ⟨1, _⟩ =>
      show win1_4.index t (1 : Fin 2) * 256 + 1 * q.val = win1_6.index t (1 : Fin 2) * 256 + 1 * q.val
      rw [f41, f61]
  · show V c main_arg6 (((cfg1.win 5).blk t).view.emb (ix1 q))
      = V c main_arg6 (ix1 (((cfg1.win 6).blk t).view.emb (ix2 p q) 1))
    refine congrArg _ (funext fun a => Fin.ext ?_)
    match a with
    | ⟨0, _⟩ =>
      show win1_5.index t (0 : Fin 1) * 256 + 1 * q.val = win1_6.index t (1 : Fin 2) * 256 + 1 * q.val
      rw [f50, f61]

/-! ## The blocks tile the array -/

/-- An index of the array lies in point `t`'s block iff each coordinate lies in the block's range on its axis. -/
theorem mem_block (t : Fin cfg1.N) (i : S100000x256.Idx) :
    i ∈ ((cfg1.win 6).blk t).view.set ↔ ∀ a : Fin 2, win1_6.index t a * S5000x256.size a ≤ (i a).val
      ∧ (i a).val < win1_6.index t a * S5000x256.size a + S5000x256.size a := by
  show i ∈ ((View.whole main_v6).slice (win1_6.rect t)).set ↔ _
  rw [View.set_slice_whole, Rect.mem_set_unit]
  exact Iff.rfl

/-- Row `r` of the array lies in the block of point `r / 5000`, and every point writes its block back. -/
theorem blocks_cover (i : S100000x256.Idx) :
    ∃ t : Fin cfg1.N, (cfg1.win 6).flush t = true ∧ i ∈ ((cfg1.win 6).blk t).view.set := by
  have hi0 : (i 0).val < 100000 := (i 0).isLt
  have hi1 : (i 1).val < 256 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, f60, f61⟩ := index_facts t
  refine ⟨t, flush1_6 t, ?_⟩
  rw [mem_block]
  intro a
  match a with
  | ⟨0, _⟩ =>
    show win1_6.index t (0 : Fin 2) * 5000 ≤ (i 0).val ∧ (i 0).val < win1_6.index t (0 : Fin 2) * 5000 + 5000
    rw [f60, ht]; omega
  | ⟨1, _⟩ =>
    show win1_6.index t (1 : Fin 2) * 256 ≤ (i 1).val ∧ (i 1).val < win1_6.index t (1 : Fin 2) * 256 + 256
    rw [f61]; omega

/-! ## The array after the run -/

/-- The array of updated nodes after the second region's run: every block the region writes back is the matching block of `EdgeNode.node` of the region's six input arrays, and the blocks tile the array. -/
theorem nodes_array (c : Dev nD) :
    (dat1 (F := Ideal) V c).arrAt 6 cfg1.N
      = Cert.EdgeNode.node (V c main_arg0) (V c main_v3) (V c main_arg2) (V c main_v4) (V c main_v5) (V c main_arg6) :=
  (dat1 (F := Ideal) V c).arrAt_eq_of_cover 6 _ (fun t _ => flushed_eq V c t) blocks_cover

end Cert.KernelIdeal.NodeBlocks
end
-- ==== Proof.KernelValue.lean ====
/-
  The idealized kernel's result array as one function of the argument arrays.

  Between its two regions the program runs six host operations from the first region's exit contents: a zero array
  [100000, 24], the destination indices as a column, the accumulating scatter of the edge messages onto the nodes,
  and the two row blocks of the layer's weight (rows 0 … 255 and rows 256 … 279).  So the second region finds, as
  its six input arrays, the node features, the scattered messages, the norms, the two weight blocks and the bias;
  none of the argument arrays has been written.  Given what each region leaves in its output array (`hE`: the edge
  messages; `hN`: the node update with the contraction split over the two weight blocks), the result array is
  `EdgeNode.node` of the arguments with the scatter of `EdgeNode.msg` in the aggregate's place.
-/
import proofs.«112761_j47278999994910_1_alg».proof.Proof.Gen.KernelIdeal.Frame
import proofs.«112761_j47278999994910_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Between

open Cert.KernelIdeal Cert.KernelIdeal.Gen Idealize.ShloMosaic.ValueIdx Cert.EdgeNode

variable (m : (ℓ : Loc nD τ sig) → Buf (Elt Ideal) ℓ) (ρ : Dev nD → PrngReg)

/-- The messages summed onto their destination nodes: the program's accumulating scatter into a zero array, at the
    destination indices read as a column. -/
def aggregate (dst : IVec S3200000 32) (u : FVec Ideal S3200000x24 .f32) : FVec Ideal S100000x24 .f32 :=
  Host.scatterAdd scatter_S100000x24_S3200000x1_S3200000x24_1_0_0_1
    (broadcastInDim S100000x24 ![] bcast_S_S100000x24 (constant (F := Ideal) S_ .f32 0x00000000#32))
    (broadcastInDim S3200000x1 ![0] bcast_S3200000_S3200000x1_0 dst) u

/-- The kernel's result as a function of its arguments. -/
def result (c : Dev nD) : FVec Ideal S100000x256 .f32 :=
  node (m ((c.tc : Thread nD τ).loc main_arg0))
    (aggregate (m ((c.tc : Thread nD τ).loc main_arg7))
      (msg (m ((c.tc : Thread nD τ).loc main_arg1)) (m ((c.tc : Thread nD τ).loc main_arg3)) (m ((c.tc : Thread nD τ).loc main_arg4))))
    (m ((c.tc : Thread nD τ).loc main_arg2)) (wTop (m ((c.tc : Thread nD τ).loc main_arg5))) (wBot (m ((c.tc : Thread nD τ).loc main_arg5)))
    (m ((c.tc : Thread nD τ).loc main_arg6))

/-! ## The first region's exit contents at the buffers the host operations read -/

theorem exit_arg7 (c : Dev nD) : W1 m ρ c (Proc.devRef .tc main_arg7) = m ((c.tc : Thread nD τ).loc main_arg7) :=
  W1_of_ne m ρ c main_arg7 (by decide)
theorem exit_arg5 (c : Dev nD) : W1 m ρ c (Proc.devRef .tc main_arg5) = m ((c.tc : Thread nD τ).loc main_arg5) :=
  W1_of_ne m ρ c main_arg5 (by decide)
theorem exit_arg0 (c : Dev nD) : W1 m ρ c (Proc.devRef .tc main_arg0) = m ((c.tc : Thread nD τ).loc main_arg0) :=
  W1_of_ne m ρ c main_arg0 (by decide)
theorem exit_arg2 (c : Dev nD) : W1 m ρ c (Proc.devRef .tc main_arg2) = m ((c.tc : Thread nD τ).loc main_arg2) :=
  W1_of_ne m ρ c main_arg2 (by decide)
theorem exit_arg6 (c : Dev nD) : W1 m ρ c (Proc.devRef .tc main_arg6) = m ((c.tc : Thread nD τ).loc main_arg6) :=
  W1_of_ne m ρ c main_arg6 (by decide)
/-- The messages' array is the first region's output window. -/
theorem exit_v0 (c : Dev nD) : W1 m ρ c (Proc.devRef .tc main_v0) = (dat0 (V0 m ρ) c).arrAt 3 cfg0.N :=
  W1_arr m ρ c 3

/-! ## The second region's entry contents -/

theorem entry_arg0 (c : Dev nD) : V2 m ρ c main_arg0 = m ((c.tc : Thread nD τ).loc main_arg0) := by
  show StableHlo.after hostOps1 (W1 m ρ c) (Proc.devRef .tc main_arg0) = _
  after_results
  exact exit_arg0 m ρ c
theorem entry_arg2 (c : Dev nD) : V2 m ρ c main_arg2 = m ((c.tc : Thread nD τ).loc main_arg2) := by
  show StableHlo.after hostOps1 (W1 m ρ c) (Proc.devRef .tc main_arg2) = _
  after_results
  exact exit_arg2 m ρ c
theorem entry_arg6 (c : Dev nD) : V2 m ρ c main_arg6 = m ((c.tc : Thread nD τ).loc main_arg6) := by
  show StableHlo.after hostOps1 (W1 m ρ c) (Proc.devRef .tc main_arg6) = _
  after_results
  exact exit_arg6 m ρ c

/-- The aggregate's array: the scatter of the first region's output at the launched destination indices. -/
theorem entry_v3 (c : Dev nD) :
    V2 m ρ c main_v3 = aggregate (m ((c.tc : Thread nD τ).loc main_arg7)) ((dat0 (V0 m ρ) c).arrAt 3 cfg0.N) := by
  show StableHlo.after hostOps1 (W1 m ρ c) (Proc.devRef .tc main_v3) = _
  after_results
  rw [exit_arg7, exit_v0]
  rfl

/-- The top weight block: rows 0 … 255 of the launched weight. -/
theorem entry_v4 (c : Dev nD) : V2 m ρ c main_v4 = wTop (m ((c.tc : Thread nD τ).loc main_arg5)) := by
  show StableHlo.after hostOps1 (W1 m ρ c) (Proc.devRef .tc main_v4) = _
  after_results
  rw [exit_arg5]
  funext j
  refine extractStridedSlice_apply _ _ _ j _ fun a => ?_
  match a with
  | ⟨0, _⟩ => show (j 0).val = 0 + (j 0).val; omega
  | ⟨1, _⟩ => show (j 1).val = 0 + (j 1).val; omega

/-- The bottom weight block: rows 256 … 279 of the launched weight. -/
theorem entry_v5 (c : Dev nD) : V2 m ρ c main_v5 = wBot (m ((c.tc : Thread nD τ).loc main_arg5)) := by
  show StableHlo.after hostOps1 (W1 m ρ c) (Proc.devRef .tc main_v5) = _
  after_results
  rw [exit_arg5]
  funext j
  refine extractStridedSlice_apply _ _ _ j _ fun a => ?_
  match a with
  | ⟨0, _⟩ => show 256 + (j 0).val = 256 + (j 0).val; rfl
  | ⟨1, _⟩ => show (j 1).val = 0 + (j 1).val; omega

/-! ## The result array -/

/-- Given what each region leaves in its output array, the result array after the run is `result`. -/
theorem result_array
    (hE : ∀ (V : (c : Dev nD) → (b : Ref sig .tc) → Buf (Elt Ideal) ((c : Thread nD τ).loc b)) (c : Dev nD),
      (dat0 (F := Ideal) V c).arrAt 3 cfg0.N = msg (V c main_arg1) (V c main_arg3) (V c main_arg4))
    (hN : ∀ (V : (c : Dev nD) → (b : Ref sig .tc) → Buf (Elt Ideal) ((c : Thread nD τ).loc b)) (c : Dev nD),
      (dat1 (F := Ideal) V c).arrAt 6 cfg1.N
        = node (V c main_arg0) (V c main_v3) (V c main_arg2) (V c main_v4) (V c main_v5) (V c main_arg6))
    (c : Dev nD) : (dat1 (V2 m ρ) c).arrAt 6 cfg1.N = result m c := by
  rw [hN (V2 m ρ) c, entry_arg0, entry_arg2, entry_arg6, entry_v3, entry_v4, entry_v5, hE (V0 m ρ) c]
  rfl

end Cert.KernelIdeal.Between

end
-- ==== Proof.RefValue.lean ====
/-
  The idealized reference's result as one function of its arguments.

  The reference projects the edges with one host contraction and adds the broadcast bias (the edge messages),
  scatters the messages onto the nodes, scales by the broadcast norm, joins the node features and the scaled
  aggregate along the feature axis into [100000, 280], contracts once with the whole weight, adds the broadcast
  bias and takes the maximum with a zero array.  Read index by index this is `EdgeNode.nodeJoined` with the scatter
  of `EdgeNode.msg` in the aggregate's place.
-/
import proofs.«112761_j47278999994910_1_alg».proof.Proof.Gen.ReferenceIdeal.Read
import proofs.«112761_j47278999994910_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.EdgeNode

/-- The messages summed onto their destination nodes: the reference's accumulating scatter into a zero array, at the
    destination indices read as a column. -/
def aggregate (dst : IVec S3200000 32) (u : FVec Ideal S3200000x24 .f32) : FVec Ideal S100000x24 .f32 :=
  Host.scatterAdd scatter_S100000x24_S3200000x1_S3200000x24_1_0_0_1
    (broadcastInDim S100000x24 ![] bcast_S_S100000x24 (constant (F := Ideal) S_ .f32 0x00000000#32))
    (broadcastInDim S3200000x1 ![0] bcast_S3200000_S3200000x1_0 dst) u

/-! ## The edge messages -/

theorem lidx_v0 (i : S3200000x24.Idx) (k : Fin 64) : lidx_main_v0 i k = ix2 (i 0) k :=
  funext fun a => Fin.ext (by match a with | ⟨0, _⟩ => rfl | ⟨1, _⟩ => rfl)
theorem ridx_v0 (i : S3200000x24.Idx) (k : Fin 64) : ridx_main_v0 i k = ix2 k (i 1) :=
  funext fun a => Fin.ext (by match a with | ⟨0, _⟩ => rfl | ⟨1, _⟩ => rfl)
theorem idx_v2 (i : S3200000x24.Idx) : idx_main_v1 (idx_main_v2 i) = ix1 (i 1) :=
  funext fun a => Fin.ext (by match a with | ⟨0, _⟩ => rfl)

/-- The projected and shifted edge features are the edge messages. -/
theorem messages (x1 : FVec Ideal S3200000x64 .f32) (x3 : FVec Ideal S64x24 .f32) (x4 : FVec Ideal S24 .f32) :
    val_main_v3 (F := Ideal) x1 x3 x4 = msg x1 x3 x4 := by
  funext i
  rw [val_main_v3_apply, val_main_v0_apply, val_main_v2_apply, val_main_v1_apply, idx_v2]
  simp only [lidx_v0, ridx_v0]
  rfl

/-- The scattered messages. -/
theorem scattered (x1 : FVec Ideal S3200000x64 .f32) (x3 : FVec Ideal S64x24 .f32) (x4 : FVec Ideal S24 .f32)
    (x7 : IVec S3200000 32) : val_main_v6 (F := Ideal) x1 x3 x4 x7 = aggregate x7 (msg x1 x3 x4) := by
  unfold val_main_v6
  rw [messages]
  rfl

/-! ## The joined features -/

/-- The joined array at node `n` and feature `k`: the node's own feature below 256, the scaled aggregate from 256 on. -/
theorem joined_apply (x0 : FVec Ideal S100000x256 .f32) (ah : FVec Ideal S100000x24 .f32) (x2 : FVec Ideal S100000x1 .f32)
    (i : S100000x256.Idx) (k : Fin 280) :
    concatenate S100000x280 1 [⟨S100000x256, x0⟩, ⟨S100000x24, mulf ah (val_main_v7 (F := Ideal) x2)⟩]
        concatenates_S100000x256_S100000x24_S100000x280_d1 (lidx_main_v10 i k)
      = joined x0 ah x2 (i 0) k := by
  unfold joined
  by_cases hk : k.val < 256
  · rw [dif_pos hk]
    refine concatenate_pair_apply_left (1 : Fin 2) x0 _ concatenates_S100000x256_S100000x24_S100000x280_d1 (lidx_main_v10 i k) rfl
      (ix2 (i 0) (⟨k.val, hk⟩ : Fin 256)) fun b => ?_
    match b with
    | ⟨0, _⟩ => rfl
    | ⟨1, _⟩ => rfl
  · rw [dif_neg hk]
    have hk' : k.val - 256 < 24 := by have := k.isLt; omega
    refine (concatenate_pair_apply_right (1 : Fin 2) x0 (mulf ah (val_main_v7 (F := Ideal) x2))
      concatenates_S100000x256_S100000x24_S100000x280_d1 (lidx_main_v10 i k) rfl rfl
      (ix2 (i 0) (⟨k.val - 256, hk'⟩ : Fin 24)) (fun b hb => ?_) ?_).trans ?_
    · match b with
      | ⟨0, _⟩ => rfl
      | ⟨1, _⟩ => exact absurd rfl hb
    · show (k.val - 256) + 256 = k.val
      omega
    · rw [mulf_apply, val_main_v7_apply]
      refine congrArg (fun z => ah _ * x2 z) ?_
      funext a
      match a with
      | ⟨0, _⟩ => rfl
      | ⟨1, _⟩ => rfl

/-! ## The result -/

theorem ridx_v10 (i : S100000x256.Idx) (k : Fin 280) : ridx_main_v10 i k = ix2 k (i 1) :=
  funext fun a => Fin.ext (by match a with | ⟨0, _⟩ => rfl | ⟨1, _⟩ => rfl)
theorem idx_v12 (i : S100000x256.Idx) : idx_main_v11 (idx_main_v12 i) = ix1 (i 1) :=
  funext fun a => Fin.ext (by match a with | ⟨0, _⟩ => rfl)

/-- The reference's result is the node update with one contraction over the joined features, at the scattered
    edge messages. -/
theorem result_eq (x0 : FVec Ideal S100000x256 .f32) (x1 : FVec Ideal S3200000x64 .f32) (x2 : FVec Ideal S100000x1 .f32)
    (x3 : FVec Ideal S64x24 .f32) (x4 : FVec Ideal S24 .f32) (x5 : FVec Ideal S280x256 .f32) (x6 : FVec Ideal S256 .f32)
    (x7 : IVec S3200000 32) :
    val_main_v14 (F := Ideal) x0 x1 x2 x3 x4 x5 x6 x7 = nodeJoined x0 (aggregate x7 (msg x1 x3 x4)) x2 x5 x6 := by
  funext i
  rw [val_main_v14_apply, val_main_v13_apply, val_main_v10_apply, val_main_v12_apply, val_main_v11_apply, idx_v12,
    val_main_call0_v0_apply, val_main_call0_cst_apply]
  unfold val_main_v9 val_main_v8
  rw [scattered]
  simp only [joined_apply, ridx_v10]
  show max _ (Ideal.ofBits .f32 0x00000000#32) = _
  rw [Ideal.ofBits_zero_f32]
  rfl

end Cert.ReferenceIdeal.RefValue

end
-- ==== Proof.lean ====
/-
  A two-stage graph layer against its plain reference, equal over the extended reals.

  Stage one gives every edge a message, its 64 features projected to 24 channels and shifted; both programs then
  sum the messages onto the edges' destination nodes with the same host scatter; stage two updates every node by a
  linear layer over its own 256 features and its 24 aggregated channels scaled by the node's norm, shifted and
  clipped below at zero.  The kernel computes stage two as two products added (the weight's first 256 rows against
  the node's features, its last 24 rows against the scaled aggregate); the reference joins the two feature blocks
  and contracts once over all 280 rows.  The two agree because a sum over 280 indices is the sum over the first
  256 plus the sum over the last 24 (`EdgeNode.nodeJoined_eq`), which needs no finiteness: the precondition is
  never opened.  The changes of float format in the kernel are the identity at the ideal instance, and a product
  into a zero accumulator is the plain sum of products there.

  The modules: `Spec` (the functions and the law between them), `EdgeBlocks` and `NodeBlocks` (what each region
  leaves in its output array), `KernelValue` (the host operations between the regions, and the kernel's result as a
  function of the arguments), `KernelRun` (the kernel's run with its result array read in the final state),
  `RefValue` (the reference's result as the same function, in its joined form).
-/
import proofs.«112761_j47278999994910_1_alg».proof.Defs
import proofs.«112761_j47278999994910_1_alg».proof.Proof.Gen.Kernel
import proofs.«112761_j47278999994910_1_alg».proof.Proof.Gen.Kernel.Skeleton
import proofs.«112761_j47278999994910_1_alg».proof.Proof.Gen.Kernel.Launch
import proofs.«112761_j47278999994910_1_alg».proof.Proof.Gen.Kernel.Points
import proofs.«112761_j47278999994910_1_alg».proof.Proof.Gen.Kernel.Frame
import proofs.«112761_j47278999994910_1_alg».proof.Proof.Gen.KernelIdeal
import proofs.«112761_j47278999994910_1_alg».proof.Proof.Gen.KernelIdeal.Skeleton
import proofs.«112761_j47278999994910_1_alg».proof.Proof.Gen.KernelIdeal.Launch
import proofs.«112761_j47278999994910_1_alg».proof.Proof.Gen.KernelIdeal.Points
import proofs.«112761_j47278999994910_1_alg».proof.Proof.Gen.KernelIdeal.Frame
import proofs.«112761_j47278999994910_1_alg».proof.Proof.Gen.ReferenceIdeal
import proofs.«112761_j47278999994910_1_alg».proof.Proof.Gen.ReferenceIdeal.Run
import proofs.«112761_j47278999994910_1_alg».proof.Proof.Gen.ReferenceIdeal.Read
import proofs.«112761_j47278999994910_1_alg».proof.Proof.Gen.Pre_finite_inputs
import proofs.«112761_j47278999994910_1_alg».proof.Proof.Spec
import proofs.«112761_j47278999994910_1_alg».proof.Proof.EdgeBlocks
import proofs.«112761_j47278999994910_1_alg».proof.Proof.NodeBlocks
import proofs.«112761_j47278999994910_1_alg».proof.Proof.KernelValue
import proofs.«112761_j47278999994910_1_alg».proof.Proof.KernelRun
import proofs.«112761_j47278999994910_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs scatter with the same operation: the same dimension numbers, the same zero array, the same
    column of destination indices. -/
theorem aggregate_eq : Cert.KernelIdeal.Between.aggregate = Cert.ReferenceIdeal.RefValue.aggregate := rfl

/-- Both programs end with the node update of the scattered edge messages: the kernel in the split form, the
    reference in the joined form, which are one function. -/
theorem algebraic : Cert.algebraic_KernelIdeal_ReferenceIdeal := by
  intro m ρ m' ρ' _ hagree
  refine ⟨fun c => Cert.KernelIdeal.Between.result m c, ?_, ?_⟩
  · exact (θ_run Cert.KernelIdeal.defs _ _).mono
      (fun _ h c => ⟨(h c).1.trans (Cert.KernelIdeal.Between.result_array m ρ
          Cert.KernelIdeal.EdgeBlocks.edges_array Cert.KernelIdeal.NodeBlocks.nodes_array c), (h c).2⟩)
      (Cert.KernelIdeal.Launch.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v14_eq, Cert.ReferenceIdeal.RefValue.result_eq, Cert.EdgeNode.nodeJoined_eq,
      h0, h1, h2, h3, h4, h5, h6, h7, ← aggregate_eq]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
